-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S1024x2048 : Shape := ⟨2, ![1024, 2048]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S256x1024 .f32) (main_arg1 : FVec F S1024x2048 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Kernel.lean ====
abbrev S256x1024 : Shape := ⟨2, ![256, 1024]⟩
abbrev S1024x2048 : Shape := ⟨2, ![1024, 2048]⟩
abbrev S16x256x4 : Shape := ⟨3, ![16, 256, 4]⟩
abbrev S1024x128 : Shape := ⟨2, ![1024, 128]⟩
abbrev S1x256x4 : Shape := ⟨3, ![1, 256, 4]⟩
abbrev S256x128 : Shape := ⟨2, ![256, 128]⟩
abbrev S256x32 : Shape := ⟨2, ![256, 32]⟩
abbrev S128x32 : Shape := ⟨2, ![128, 32]⟩
abbrev S128x1x32 : Shape := ⟨3, ![128, 1, 32]⟩
abbrev S1x256x32 : Shape := ⟨3, ![1, 256, 32]⟩
abbrev S128x256x32 : Shape := ⟨3, ![128, 256, 32]⟩
abbrev S128x256 : Shape := ⟨2, ![128, 256]⟩
abbrev S128 : Shape := ⟨1, ![128]⟩
abbrev S128x1 : Shape := ⟨2, ![128, 1]⟩
abbrev S1x128x1 : Shape := ⟨3, ![1, 128, 1]⟩
abbrev S256x16x4 : Shape := ⟨3, ![256, 16, 4]⟩
abbrev S256x64 : Shape := ⟨2, ![256, 64]⟩
abbrev S256x1088 : Shape := ⟨2, ![256, 1088]⟩

abbrev nBuf : Space → Nat
  | .hbm => 6
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S16x256x4, .f32⟩
  | .hbm, ⟨3, _⟩ => ⟨S256x16x4, .f32⟩
  | .hbm, ⟨4, _⟩ => ⟨S256x64, .f32⟩
  | .hbm, ⟨5, _⟩ => ⟨S256x1088, .f32⟩
  | .local _ .vmem, ⟨0, _⟩ => ⟨S256x1024, .f32⟩
  | .local _ .vmem, ⟨1, _⟩ => ⟨S1024x128, .f32⟩
  | .local _ .vmem, ⟨2, _⟩ => ⟨S1024x128, .f32⟩
  | .local _ .vmem, ⟨3, _⟩ => ⟨S1x256x4, .f32⟩
  | .local _ .vmem, ⟨4, _⟩ => ⟨S1x256x4, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  slices_S256x128_o0_0_S256x32 : S256x128.Slices ![0, 0] S256x32
  slices_S256x32_o0_0_S128x32 : S256x32.Slices ![0, 0] S128x32
  shapeCasts_S128x32_S128x1x32 : S128x32.ShapeCasts S128x1x32
  shapeCasts_S256x32_S1x256x32 : S256x32.ShapeCasts S1x256x32
  broadcasts_S128x1x32_S128x256x32 : S128x1x32.Broadcasts S128x256x32
  broadcasts_S1x256x32_S128x256x32 : S1x256x32.Broadcasts S128x256x32
  reduces_S128x256x32_S128x256 : S128x256x32.Reduces [2] S128x256
  iota_S128x256_d0_w32 : S128x256.Iotas .tc 32 [0]
  iota_S128x256_d1_w32 : S128x256.Iotas .tc 32 [1]
  natLt_1_32 : 1 < 32
  reduces_S128x256_S128 : S128x256.Reduces [1] S128
  shapeCasts_S128_S128x1 : S128.ShapeCasts S128x1
  inb_S1x256x4_S1x128x1_0_0_0 : ∀ a, (![0, 0, 0] : Fin 3 → Nat) a + S1x128x1.size a ≤ S1x256x4.size a
  h_S1x128x1 : 0 < S1x128x1.numel
  shapeCasts_S1x128x1_S128x1 : S1x128x1.ShapeCasts S128x1
  shapeCasts_S128x1_S1x128x1 : S128x1.ShapeCasts S1x128x1
  slices_S256x32_o128_0_S128x32 : S256x32.Slices ![128, 0] S128x32
  inb_S1x256x4_S1x128x1_0_128_0 : ∀ a, (![0, 128, 0] : Fin 3 → Nat) a + S1x128x1.size a ≤ S1x256x4.size a
  slices_S256x128_o0_32_S256x32 : S256x128.Slices ![0, 32] S256x32
  inb_S1x256x4_S1x128x1_0_0_1 : ∀ a, (![0, 0, 1] : Fin 3 → Nat) a + S1x128x1.size a ≤ S1x256x4.size a
  inb_S1x256x4_S1x128x1_0_128_1 : ∀ a, (![0, 128, 1] : Fin 3 → Nat) a + S1x128x1.size a ≤ S1x256x4.size a
  slices_S256x128_o0_64_S256x32 : S256x128.Slices ![0, 64] S256x32
  inb_S1x256x4_S1x128x1_0_0_2 : ∀ a, (![0, 0, 2] : Fin 3 → Nat) a + S1x128x1.size a ≤ S1x256x4.size a
  inb_S1x256x4_S1x128x1_0_128_2 : ∀ a, (![0, 128, 2] : Fin 3 → Nat) a + S1x128x1.size a ≤ S1x256x4.size a
  slices_S256x128_o0_96_S256x32 : S256x128.Slices ![0, 96] S256x32
  inb_S1x256x4_S1x128x1_0_0_3 : ∀ a, (![0, 0, 3] : Fin 3 → Nat) a + S1x128x1.size a ≤ S1x256x4.size a
  inb_S1x256x4_S1x128x1_0_128_3 : ∀ a, (![0, 128, 3] : Fin 3 → Nat) a + S1x128x1.size a ≤ S1x256x4.size a
  transposes_S16x256x4_S256x16x4_1_0_2 : S16x256x4.Transposes [1, 0, 2] S256x16x4
  shapeCasts_S256x16x4_S256x64 : S256x16x4.ShapeCasts S256x64
  concatenates_S256x1024_S256x64_S256x1088_d1 : Shape.Concatenates [S256x1024, S256x64] S256x1088 1
  dot_S256x1024_S1024x128_S256x128_1_0_0_1_n_n_wf : DotDims.WF S256x1024 S1024x128 S256x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x1024.size a
  hwx0_0 : ∀ i : grid0.Coords, EltTy.bits .f32 = 32 ∨ (Rect.block (s := S256x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x2048.size a
  hwx0_1 : ∀ i : grid0.Coords, EltTy.bits .f32 = 32 ∨ (Rect.block (s := S1024x2048) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4.size a ≤ S16x256x4.size a
  hwx0_2 : ∀ i : grid0.Coords, EltTy.bits .f32 = 32 ∨ (Rect.block (s := S16x256x4) S1x256x4.size (cc0_transform_2 i) (hinb0_2 i)).WholeWords (EltTy.packing .f32)

variable [Facts₀]

def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_arg0) S256x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x1024 : Shape := ⟨2, ![256, 1024]⟩
abbrev S1024x2048 : Shape := ⟨2, ![1024, 2048]⟩
abbrev S256x2048 : Shape := ⟨2, ![256, 2048]⟩
abbrev S256x64x32 : Shape := ⟨3, ![256, 64, 32]⟩
abbrev S256x64x32x1 : Shape := ⟨4, ![256, 64, 32, 1]⟩
abbrev S64x32x256 : Shape := ⟨3, ![64, 32, 256]⟩
abbrev S1x64x32x256 : Shape := ⟨4, ![1, 64, 32, 256]⟩
abbrev S256x64x32x256 : Shape := ⟨4, ![256, 64, 32, 256]⟩
abbrev S_ : Shape := ⟨0, ![]⟩
abbrev S256x64x256 : Shape := ⟨3, ![256, 64, 256]⟩
abbrev S256x256 : Shape := ⟨2, ![256, 256]⟩
abbrev S256x1x256 : Shape := ⟨3, ![256, 1, 256]⟩
abbrev S256x64 : Shape := ⟨2, ![256, 64]⟩
abbrev S256x1088 : Shape := ⟨2, ![256, 1088]⟩

abbrev nBuf : Space → Nat
  | .hbm => 31
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S256x2048, .f32⟩
  | .hbm, ⟨3, _⟩ => ⟨S256x64x32, .f32⟩
  | .hbm, ⟨4, _⟩ => ⟨S256x64x32x1, .f32⟩
  | .hbm, ⟨5, _⟩ => ⟨S64x32x256, .f32⟩
  | .hbm, ⟨6, _⟩ => ⟨S1x64x32x256, .f32⟩
  | .hbm, ⟨7, _⟩ => ⟨S256x64x32x256, .f32⟩
  | .hbm, ⟨8, _⟩ => ⟨S256x64x32x256, .f32⟩
  | .hbm, ⟨9, _⟩ => ⟨S256x64x32x256, .f32⟩
  | .hbm, ⟨10, _⟩ => ⟨S256x64x32x256, .f32⟩
  | .hbm, ⟨11, _⟩ => ⟨S_, .f32⟩
  | .hbm, ⟨12, _⟩ => ⟨S256x64x256, .f32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S256x256, .f32⟩
  | .hbm, ⟨20, _⟩ => ⟨S256x1x256, .f32⟩
  | .hbm, ⟨21, _⟩ => ⟨S_, .f32⟩
  | .hbm, ⟨22, _⟩ => ⟨S256x1x256, .f32⟩
  | .hbm, ⟨23, _⟩ => ⟨S256x1x256, .f32⟩
  | .hbm, ⟨24, _⟩ => ⟨S256x64x256, .f32⟩
  | .hbm, ⟨25, _⟩ => ⟨S256x64x256, .f32⟩
  | .hbm, ⟨26, _⟩ => ⟨S256x64x256, .f32⟩
  | .hbm, ⟨27, _⟩ => ⟨S256x64x256, .f32⟩
  | .hbm, ⟨28, _⟩ => ⟨S_, .f32⟩
  | .hbm, ⟨29, _⟩ => ⟨S256x64, .f32⟩
  | .hbm, ⟨30, _⟩ => ⟨S256x1088, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]

class Facts₀ : Prop where
  shapeCasts_S256x2048_S256x64x32 : S256x2048.ShapeCasts S256x64x32
  bcast_S256x64x32_S256x64x32x1_0_1_2 : S256x64x32.BroadcastsInDim S256x64x32x1 (![0, 1, 2] : Fin 3 → Fin S256x64x32x1.rank)
  transposes_S256x64x32_S64x32x256_1_2_0 : S256x64x32.Transposes [1, 2, 0] S64x32x256
  bcast_S64x32x256_S1x64x32x256_1_2_3 : S64x32x256.BroadcastsInDim S1x64x32x256 (![1, 2, 3] : Fin 3 → Fin S1x64x32x256.rank)
  bcast_S256x64x32x1_S256x64x32x256_0_1_2_3 : S256x64x32x1.BroadcastsInDim S256x64x32x256 (![0, 1, 2, 3] : Fin 4 → Fin S256x64x32x256.rank)
  bcast_S1x64x32x256_S256x64x32x256_0_1_2_3 : S1x64x32x256.BroadcastsInDim S256x64x32x256 (![0, 1, 2, 3] : Fin 4 → Fin S256x64x32x256.rank)
  reducesTo_S256x64x32x256_S256x64x256_d2 : S256x64x32x256.ReducesTo [2] S256x64x256
  h_S_ : 0 < S_.numel
  bcast_S_S256x256 : S_.BroadcastsInDim S256x256 (![] : Fin 0 → Fin S256x256.rank)
  bcast_S256x256_S256x1x256_0_2 : S256x256.BroadcastsInDim S256x1x256 (![0, 2] : Fin 2 → Fin S256x1x256.rank)
  bcast_S_S256x1x256 : S_.BroadcastsInDim S256x1x256 (![] : Fin 0 → Fin S256x1x256.rank)
  bcast_S256x1x256_S256x64x256_0_1_2 : S256x1x256.BroadcastsInDim S256x64x256 (![0, 1, 2] : Fin 3 → Fin S256x64x256.rank)
  reducesTo_S256x64x256_S256x64_d2 : S256x64x256.ReducesTo [2] S256x64
  concatenates_S256x1024_S256x64_S256x1088_d1 : Shape.Concatenates [S256x1024, S256x64] S256x1088 1
  dot_S256x1024_S1024x2048_S256x2048_1_0_0_1_n_n_wf : DotDims.WF S256x1024 S1024x2048 S256x2048 [1] [0] [0] [1] [] []

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

class Facts : Prop extends Facts₀ where

variable [Facts]
-- ==== Proof.Spec.lean ====
/-
  The function both programs compute, written once over plain index types.

  From the product `m = x · T` (a `256 × 2048` array, read as 64 groups of 32 columns) the result at row `i`
  and group `b` is the sum over every row `k` of `exp (-(d(i, k) + E · [i = k]))`, where `d(i, k)` is the
  L1 distance between the two rows' entries in group `b` and `E` erases the diagonal. A group enters only through
  the `256 × 32` panel `P` of its columns, so the function is stated over a panel.
-/
import Idealize.ShloMosaic.Lib.ValueIdx
import Idealize.ShloMosaic.PureOps.Ideal.Laws

noncomputable section

namespace Cert.PairSpec

open Idealize.ShloMosaic Idealize.ShloMosaic.ValueIdx

/-- The diagonal indicator as both programs compute it: the one-bit comparison of the two row numbers as 32-bit
    words, read as a number. It is never evaluated: both sides arrive at this same term. -/
def diag (i k : ℕ) : EReal := (((IntOp.cmpi .eq (BitVec.ofNat 32 i) (BitVec.ofNat 32 k)).toNat : ℝ) : EReal)

/-- The additive mask's weight (the same word in both programs). -/
def erase : EReal := Ideal.ofBits .f32 0x49742400#32

/-- One term of the sum over keys: `exp (-(‖P i − P k‖₁ + E · [i = k]))`. -/
def cell (P : Fin 256 → Fin 32 → EReal) (i k : Fin 256) : EReal :=
  Ideal.exp (-((∑ c : Fin 32, max (P i c - P k c) (-(P i c - P k c))) + erase * diag i.val k.val))

/-- Row `i`'s result for the panel: the sum of its terms over every key row. -/
def rowO (P : Fin 256 → Fin 32 → EReal) (i : Fin 256) : EReal := ∑ k : Fin 256, cell P i k

/-- The matrix product at `(i, n)`. -/
def mm (x : (⟨2, ![256, 1024]⟩ : Shape).Idx → EReal) (T : (⟨2, ![1024, 2048]⟩ : Shape).Idx → EReal)
    (i : Fin 256) (n : Fin 2048) : EReal := ∑ a : Fin 1024, x (ix2 i a) * T (ix2 a n)

/-- Column `c` of group `b` in the product. -/
def col (b : Fin 64) (c : Fin 32) : Fin 2048 := ⟨32 * b.val + c.val, by omega⟩

/-- The `[256, 64]` result at row `i`, group `b`. -/
def O (x : (⟨2, ![256, 1024]⟩ : Shape).Idx → EReal) (T : (⟨2, ![1024, 2048]⟩ : Shape).Idx → EReal)
    (i : Fin 256) (b : Fin 64) : EReal := rowO (fun i' c => mm x T i' (col b c)) i

/-- The same as an array. -/
def Oarr (x : (⟨2, ![256, 1024]⟩ : Shape).Idx → EReal) (T : (⟨2, ![1024, 2048]⟩ : Shape).Idx → EReal) :
    (⟨2, ![256, 64]⟩ : Shape).Idx → EReal := fun I => O x T (I 0) (I 1)

theorem Oarr_ix2 (x : (⟨2, ![256, 1024]⟩ : Shape).Idx → EReal) (T : (⟨2, ![1024, 2048]⟩ : Shape).Idx → EReal)
    (i : Fin 256) (b : Fin 64) : Oarr x T (ix2 i b) = O x T i b := rfl

/-- A one-bit word widened without sign to 32 bits and read as a signed number is the bit. -/
theorem bit_widen_signed (b : BitVec 1) : (((b.setWidth 32).toInt : ℝ) : EReal) = ((b.toNat : ℝ) : EReal) := by
  rcases BitVec.eq_zero_or_eq_one b with h | h <;> subst h <;> simp

/-- Adding the zero word changes nothing; adding a row tile's base to a row number inside it is the row number. -/
theorem word_add_zero (i : ℕ) : IntOp.addi (BitVec.ofNat 32 i) 0#32 = BitVec.ofNat 32 i := by
  unfold IntOp.addi; exact BitVec.add_zero _

theorem word_base_add (base r : ℕ) : IntOp.addi (BitVec.ofNat 32 base) (BitVec.ofNat 32 r) = BitVec.ofNat 32 (base + r) := by
  unfold IntOp.addi; exact (BitVec.ofNat_add base r).symm

end Cert.PairSpec

end
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.LibColumn.lean ====
/-
  Column forms of the layout operations, read at an index written with the coordinate constructors:
  what a row reduction with `keepdims` needs. A vector `[a]` cast to a column `[a, 1]` reads, at `(i, u)`,
  the vector at `i` (the row-major position of `(i, u)` in `[a, 1]` is `i`); a column `[a, 1]` broadcast
  to `[a, b]` reads, at `(p, c)`, the column at row `p` (the unit axis contributes coordinate `0`).
-/
import Idealize.ShloMosaic.Lib.ValueLayout

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Tile.lean ====
/-
  One row tile of one group, as a function of the group's `256 × 32` panel.

  The kernel body computes eight `128 × 1` columns per grid point (four groups of 32 product columns, two tiles of
  128 query rows). Each is the same composition: the table of L1 distances between the tile's rows and all 256 rows
  of the panel, the diagonal mask from the tile's row numbers, `exp` of the negated masked distances, and the sum
  over the key axis kept as a column. The building blocks below are cut where the body's intermediate values are
  named, so that every stored value is literally their composition; then a tile is read at a row.
-/
import proofs.«134315_j62869731279616_1_alg».proof.Proof.Gen.KernelIdeal.Skeleton
import proofs.«134315_j62869731279616_1_alg».proof.Proof.Spec
import proofs.«134315_j62869731279616_1_alg».proof.Proof.LibRowOps
import proofs.«134315_j62869731279616_1_alg».proof.Proof.LibColumn
import Idealize.ShloMosaic.Lib.Pipeline.Value

noncomputable section

namespace Cert.KernelIdeal.Tile

open Cert.KernelIdeal Cert.KernelIdeal.Gen Idealize.ShloMosaic Idealize.ShloMosaic.ValueIdx Cert.PairSpec

variable {F : FTy → Type} [FloatOps F]

/-! ## The building blocks, at any float instance -/

/-- The first (second) 128 rows of a panel, with a unit axis for the keys to be broadcast along. -/
def rowsLo (ms : FVec F S256x32 .f32) : FVec F S128x1x32 .f32 :=
  shapeCast S128x1x32 (extractStridedSlice S128x32 ![0, 0] ms slices_S256x32_o0_0_S128x32) shapeCasts_S128x32_S128x1x32
def rowsHi (ms : FVec F S256x32 .f32) : FVec F S128x1x32 .f32 :=
  shapeCast S128x1x32 (extractStridedSlice S128x32 ![128, 0] ms slices_S256x32_o128_0_S128x32) shapeCasts_S128x32_S128x1x32

/-- The L1 distances between each of the tile's 128 rows and each of the panel's 256 rows. -/
def distOf (rows : FVec F S128x1x32 .f32) (ms : FVec F S256x32 .f32) : FVec F S128x256 .f32 :=
  multiReduction .add [2] S128x256
    (absf (subf (broadcastTo S128x256x32 rows broadcasts_S128x1x32_S128x256x32)
      (broadcastTo S128x256x32 (shapeCast S1x256x32 ms shapeCasts_S256x32_S1x256x32) broadcasts_S1x256x32_S128x256x32)))
    0x00000000#32 reduces_S128x256x32_S128x256 (.inl rfl) rfl

/-- The tile's global row numbers (its base plus the local row), and their comparison with the key's number. -/
def rowIds (w : BitVec 32) : IVec S128x256 32 := addi (broadcast S128x256 w) (iota .tc S128x256 32 [0] iota_S128x256_d0_w32)
def maskOf (rows : IVec S128x256 32) : IVec S128x256 1 := cmpi .eq rows (iota .tc S128x256 32 [1] iota_S128x256_d1_w32)

/-- `exp (0 - (d + E · mask))`, entry by entry. -/
def expOf (d : FVec F S128x256 .f32) (mk : IVec S128x256 1) : FVec F S128x256 .f32 :=
  exp (subf (broadcast S128x256 (Scalar.ofBits .f32 0x00000000#32))
    (addf d (mulf (broadcast S128x256 (Scalar.ofBits .f32 0x49742400#32)) (sitofp .f32 (extui 32 mk natLt_1_32)))))

/-- The sum over the keys, kept as a `1 × 128 × 1` column. -/
def colOf (e : FVec F S128x256 .f32) : FVec F S1x128x1 .f32 :=
  shapeCast S1x128x1 (shapeCast S128x1 (multiReduction .add [1] S128 e 0x00000000#32 reduces_S128x256_S128 (.inl rfl) rfl)
    shapeCasts_S128_S128x1) shapeCasts_S128x1_S1x128x1

/-- A whole tile from its rows, the panel and the tile's base row number. -/
def tileOf (rows : FVec F S128x1x32 .f32) (ms : FVec F S256x32 .f32) (w : BitVec 32) : FVec F S1x128x1 .f32 :=
  colOf (expOf (distOf rows ms) (maskOf (rowIds w)))

/-! ## Every stored value is a tile -/

/-- The product of the two loaded blocks, and its four panels. -/
abbrev prod (x0 : Vec F S256x1024 .f32) (x1 : Vec F S1024x128 .f32) : FVec F S256x128 .f32 := k0_pay3 x0 x1

theorem panel0_eq (x0 : Vec F S256x1024 .f32) (x1 : Vec F S1024x128 .f32) :
    k0_pay4 x0 x1 = extractStridedSlice S256x32 ![0, 0] (prod x0 x1) slices_S256x128_o0_0_S256x32 := rfl

theorem store_g0_lo (x0 : Vec F S256x1024 .f32) (x1 : Vec F S1024x128 .f32) :
    k0_pay5 x0 x1 = tileOf (rowsLo (k0_pay4 x0 x1)) (k0_pay4 x0 x1) 0#32 := rfl
theorem store_g0_hi (x0 : Vec F S256x1024 .f32) (x1 : Vec F S1024x128 .f32) :
    k0_pay8 (k0_pay6 x0 x1) k0_pay7 = tileOf (rowsHi (k0_pay4 x0 x1)) (k0_pay4 x0 x1) 128#32 := rfl
theorem store_g1_lo (M : FVec F S256x128 .f32) :
    k0_pay10 M = tileOf (rowsLo (k0_pay9 M)) (k0_pay9 M) 0#32 := rfl
theorem store_g1_hi (M : FVec F S256x128 .f32) :
    k0_pay12 (k0_pay9 M) (k0_pay11 M) = tileOf (rowsHi (k0_pay9 M)) (k0_pay9 M) 128#32 := rfl
theorem store_g2_lo (M : FVec F S256x128 .f32) :
    k0_pay15 (k0_pay14 M) = tileOf (rowsLo (k0_pay13 M)) (k0_pay13 M) 0#32 := rfl
theorem store_g2_hi (M : FVec F S256x128 .f32) :
    k0_pay16 (k0_pay13 M) = tileOf (rowsHi (k0_pay13 M)) (k0_pay13 M) 128#32 := rfl
theorem store_g3_lo (M : FVec F S256x128 .f32) :
    k0_pay1 (k0_pay18 M) k0_pay19 = tileOf (rowsLo (k0_pay17 M)) (k0_pay17 M) 0#32 := rfl
theorem store_g3_hi (M : FVec F S256x128 .f32) :
    k0_pay2 (k0_pay17 M) = tileOf (rowsHi (k0_pay17 M)) (k0_pay17 M) 128#32 := rfl

/-! ## A tile read at a row, over the extended reals -/

/-- The column at local row `r` is the sum of the table's row `r`. -/
theorem colOf_apply (e : FVec Ideal S128x256 .f32) (r : Fin 128) :
    colOf (F := Ideal) e (ix3 (0 : Fin 1) r (0 : Fin 1)) = ∑ k : Fin 256, e (ix2 r k) := by
  unfold colOf
  refine (shapeCast_apply _ shapeCasts_S128x1_S1x128x1 (ix3 (0 : Fin 1) r (0 : Fin 1)) (ix2 r (0 : Fin 1)) ?_).trans ?_
  · rw [Shape.rowMajor_val_two, Shape.rowMajor_val_three]
    show r.val * 1 + 0 = (0 * 128 + r.val) * 1 + 0
    omega
  refine (Cert.LibColumn.shapeCast_a_a1_apply _ shapeCasts_S128_S128x1 r (0 : Fin 1)).trans ?_
  exact Cert.LibRowOps.rowSum_apply e 0x00000000#32 reduces_S128x256_S128 (.inl rfl) rfl r

/-- The index put back on the dropped last axis. -/
theorem lift_last (h : S128x256x32.Reduces [2] S128x256) (r : Fin 128) (k : Fin 256) (c : Fin 32) :
    h.lift (ix2 r k) c = ix3 r k c :=
  funext fun a => Fin.ext (by match a with | ⟨0, _⟩ => rfl | ⟨1, _⟩ => rfl | ⟨2, _⟩ => rfl)

/-- One entry of the table of absolute differences: the tile's row `r` against the panel's row `k`, at column `c`. -/
theorem absdiff_apply (rows : FVec Ideal S128x1x32 .f32) (ms : FVec Ideal S256x32 .f32) (r : Fin 128) (k : Fin 256) (c : Fin 32) :
    absf (subf (broadcastTo S128x256x32 rows broadcasts_S128x1x32_S128x256x32)
      (broadcastTo S128x256x32 (shapeCast S1x256x32 ms shapeCasts_S256x32_S1x256x32) broadcasts_S1x256x32_S128x256x32)) (ix3 r k c)
      = max (rows (ix3 r (0 : Fin 1) c) - ms (ix2 k c)) (-(rows (ix3 r (0 : Fin 1) c) - ms (ix2 k c))) := by
  have e1 : broadcastTo S128x256x32 rows broadcasts_S128x1x32_S128x256x32 (ix3 r k c) = rows (ix3 r (0 : Fin 1) c) :=
    broadcastTo_apply rows _ (ix3 r k c) (ix3 r (0 : Fin 1) c)
      (fun a => by match a with | ⟨0, _⟩ => rfl | ⟨1, _⟩ => rfl | ⟨2, _⟩ => rfl)
  have e2 : broadcastTo S128x256x32 (shapeCast S1x256x32 ms shapeCasts_S256x32_S1x256x32) broadcasts_S1x256x32_S128x256x32 (ix3 r k c)
      = ms (ix2 k c) :=
    (broadcastTo_apply _ _ (ix3 r k c) (ix3 (0 : Fin 1) k c)
      (fun a => by match a with | ⟨0, _⟩ => rfl | ⟨1, _⟩ => rfl | ⟨2, _⟩ => rfl)).trans
    (shapeCast_apply ms _ (ix3 (0 : Fin 1) k c) (ix2 k c) (by
      rw [Shape.rowMajor_val_two, Shape.rowMajor_val_three]
      show k.val * 32 + c.val = (0 * 256 + k.val) * 32 + c.val
      omega))
  exact congrArg₂ (fun a b : EReal => max (a - b) (-(a - b))) e1 e2

/-- The distance table at `(r, k)`: the sum over the 32 columns of `|rows r − panel k|`. -/
theorem distOf_apply (rows : FVec Ideal S128x1x32 .f32) (ms : FVec Ideal S256x32 .f32) (r : Fin 128) (k : Fin 256) :
    distOf (F := Ideal) rows ms (ix2 r k)
      = ∑ c : Fin 32, max (rows (ix3 r (0 : Fin 1) c) - ms (ix2 k c)) (-(rows (ix3 r (0 : Fin 1) c) - ms (ix2 k c))) := by
  unfold distOf
  refine (Ideal.multiReduction_add_single _ 0x00000000#32 reduces_S128x256x32_S128x256 (.inl rfl) rfl (ix2 r k)).trans
    (Finset.sum_congr rfl fun (c : Fin 32) _ => ?_)
  exact (congrArg _ (lift_last reduces_S128x256x32_S128x256 r k c)).trans (absdiff_apply rows ms r k c)

/-- The mask at `(r, k)`: the tile's base plus `r`, compared with `k`, as words. -/
theorem mask_apply (w : BitVec 32) (r : Fin 128) (k : Fin 256) :
    maskOf (rowIds w) (ix2 r k) = IntOp.cmpi .eq (IntOp.addi w (BitVec.ofNat 32 r.val)) (BitVec.ofNat 32 k.val) := by
  unfold maskOf rowIds
  show IntOp.cmpi .eq (IntOp.addi w (iota .tc S128x256 32 [0] iota_S128x256_d0_w32 (ix2 r k)))
      (iota .tc S128x256 32 [1] iota_S128x256_d1_w32 (ix2 r k)) = _
  rw [iota_single_apply, iota_single_apply]

/-- The exp table at an entry. -/
theorem expOf_apply (d : FVec Ideal S128x256 .f32) (mk : IVec S128x256 1) (j : S128x256.Idx) :
    expOf (F := Ideal) d mk j = Ideal.exp (-(d j + erase * (((mk j).toNat : ℝ) : EReal))) := by
  show Ideal.exp (Ideal.ofBits .f32 0x00000000#32
      - (d j + Ideal.ofBits .f32 0x49742400#32 * ((((mk j).setWidth 32).toInt : ℝ) : EReal))) = _
  rw [Ideal.ofBits_zero_f32, zero_sub, bit_widen_signed]
  rfl

/-- A TILE AT A ROW. If the tile's rows are rows `base …` of the panel `P` and the panel's array is `P`, the tile at local
    row `r` is the spec's row result at the global row `i = base + r`. -/
theorem tileOf_apply (rows : FVec Ideal S128x1x32 .f32) (ms : FVec Ideal S256x32 .f32) (base : ℕ)
    (P : Fin 256 → Fin 32 → EReal) (r : Fin 128) (i : Fin 256) (hi : i.val = base + r.val)
    (hrows : ∀ c : Fin 32, rows (ix3 r (0 : Fin 1) c) = P i c)
    (hms : ∀ (k : Fin 256) (c : Fin 32), ms (ix2 k c) = P k c) :
    tileOf (F := Ideal) rows ms (BitVec.ofNat 32 base) (ix3 (0 : Fin 1) r (0 : Fin 1)) = rowO P i := by
  unfold tileOf
  rw [colOf_apply]
  unfold rowO cell
  refine Finset.sum_congr rfl fun k _ => ?_
  rw [expOf_apply, distOf_apply, mask_apply, word_base_add, ← hi]
  simp only [hrows, hms]
  rfl

end Cert.KernelIdeal.Tile

end
-- ==== Proof.Block.lean ====
/-
  What one grid point leaves in the output block, as one function of the two loaded blocks.

  The point's product `M = x0 · x1` is a `256 × 128` array: four panels of 32 columns. The body stores eight
  `128 × 1` columns into the `1 × 256 × 4` block; the column stored at rows `base … base + 127` of lane `j` is
  the tile of panel `j` with base row `base`. So the whole block is one function of `M`: at `(0, i, j)` the spec's row
  result of panel `j` at row `i`, and the eight stores are its restrictions to the rectangles they write.
-/
import proofs.«134315_j62869731279616_1_alg».proof.Proof.Gen.KernelIdeal.Frame
import proofs.«134315_j62869731279616_1_alg».proof.Proof.Tile

set_option maxRecDepth 16384

noncomputable section

namespace Cert.KernelIdeal.Block

open Cert.KernelIdeal Cert.KernelIdeal.Gen Cert.KernelIdeal.Tile Idealize.ShloMosaic Idealize.ShloMosaic.ValueIdx Cert.PairSpec

/-! ## The product at an index -/

theorem lhs_prod_0 (i : S256x128.Idx) (q : dot_S256x1024_S1024x128_S256x128_1_0_0_1_n_n.contr.Idx) :
    (dot_S256x1024_S1024x128_S256x128_1_0_0_1_n_n.lhsIdx i q 0).val = (i 0).val := by
  unfold DotDims.lhsIdx
  rw [dif_neg (show ¬(0 : Fin S256x1024.rank) ∈ dot_S256x1024_S1024x128_S256x128_1_0_0_1_n_n.lhsBatch by decide), dif_pos (show (0 : Fin S256x1024.rank) ∈ dot_S256x1024_S1024x128_S256x128_1_0_0_1_n_n.lhsNonContracting by decide)]
  rfl
theorem lhs_prod_1 (i : S256x128.Idx) (q : dot_S256x1024_S1024x128_S256x128_1_0_0_1_n_n.contr.Idx) :
    (dot_S256x1024_S1024x128_S256x128_1_0_0_1_n_n.lhsIdx i q 1).val = (q ⟨0, by decide⟩).val :=
  dot_S256x1024_S1024x128_S256x128_1_0_0_1_n_n.lhsIdx_val_of_single rfl i q
theorem rhs_prod_0 (i : S256x128.Idx) (q : dot_S256x1024_S1024x128_S256x128_1_0_0_1_n_n.contr.Idx) :
    (dot_S256x1024_S1024x128_S256x128_1_0_0_1_n_n.rhsIdx i q 0).val = (q ⟨0, by decide⟩).val :=
  dot_S256x1024_S1024x128_S256x128_1_0_0_1_n_n.rhsIdx_val_of_single rfl i q
theorem rhs_prod_1 (i : S256x128.Idx) (q : dot_S256x1024_S1024x128_S256x128_1_0_0_1_n_n.contr.Idx) :
    (dot_S256x1024_S1024x128_S256x128_1_0_0_1_n_n.rhsIdx i q 1).val = (i 1).val := by
  unfold DotDims.rhsIdx
  rw [dif_neg (show ¬(1 : Fin S1024x128.rank) ∈ dot_S256x1024_S1024x128_S256x128_1_0_0_1_n_n.rhsBatch by decide), dif_pos (show (1 : Fin S1024x128.rank) ∈ dot_S256x1024_S1024x128_S256x128_1_0_0_1_n_n.rhsNonContracting by decide)]
  rfl

/-- The point's product at `(i, n)`: the sum over the 1024 contracted coordinates (the narrowing of the operands
    is the identity on the extended reals, and the accumulator is zero). -/
theorem prod_apply (x0 : Vec Ideal S256x1024 .f32) (x1 : Vec Ideal S1024x128 .f32) (i : Fin 256) (n : Fin 128) :
    prod (F := Ideal) x0 x1 (ix2 i n) = ∑ a : Fin 1024, x0 (ix2 i a) * x1 (ix2 a n) := by
  show FloatOps.matmul dot_S256x1024_S1024x128_S256x128_1_0_0_1_n_n none (truncf (F := Ideal) .bf16 x0 bitsLt_bf16_f32) (truncf (F := Ideal) .bf16 x1 bitsLt_bf16_f32)
      (constant (F := Ideal) S256x128 .f32 0x00000000#32) (ix2 i n) = _
  rw [Ideal.matmul_constant_zero_apply, ← Equiv.sum_comp (contrEquiv1 dot_S256x1024_S1024x128_S256x128_1_0_0_1_n_n 1024 rfl rfl).symm]
  refine Finset.sum_congr rfl fun k _ => ?_
  have hk := contrEquiv1_symm_val dot_S256x1024_S1024x128_S256x128_1_0_0_1_n_n 1024 rfl rfl k
  have el : dot_S256x1024_S1024x128_S256x128_1_0_0_1_n_n.lhsIdx (ix2 i n) ((contrEquiv1 dot_S256x1024_S1024x128_S256x128_1_0_0_1_n_n 1024 rfl rfl).symm k) = ix2 i k := funext fun a => Fin.ext (by
    match a with
    | ⟨0, _⟩ => exact lhs_prod_0 _ _
    | ⟨1, _⟩ => exact (lhs_prod_1 _ _).trans hk)
  have er : dot_S256x1024_S1024x128_S256x128_1_0_0_1_n_n.rhsIdx (ix2 i n) ((contrEquiv1 dot_S256x1024_S1024x128_S256x128_1_0_0_1_n_n 1024 rfl rfl).symm k) = ix2 k n := funext fun a => Fin.ext (by
    match a with
    | ⟨0, _⟩ => exact (rhs_prod_0 _ _).trans hk
    | ⟨1, _⟩ => exact rhs_prod_1 _ _)
  rw [el, er]
  rfl

/-! ## Panels and row tiles at an index -/

/-- Column `c` of panel `j` in the point's product. -/
def pcol (j : Fin 4) (c : Fin 32) : Fin 128 := ⟨32 * j.val + c.val, by omega⟩

/-- A panel of 32 columns from column `o`, read at `(k, c)`. -/
theorem slice_cols (M : FVec Ideal S256x128 .f32) (o : ℕ) (h : S256x128.Slices ![0, o] S256x32) (k : Fin 256) (c : Fin 32)
    (n : Fin 128) (hn : n.val = o + c.val) : extractStridedSlice S256x32 ![0, o] M h (ix2 k c) = M (ix2 k n) :=
  extractStridedSlice_apply _ M h (ix2 k c) (ix2 k n) (fun a => by
    match a with
    | ⟨0, _⟩ => show k.val = 0 + k.val; omega
    | ⟨1, _⟩ => exact hn)

theorem panel0_apply (x0 : Vec Ideal S256x1024 .f32) (x1 : Vec Ideal S1024x128 .f32) (k : Fin 256) (c : Fin 32) :
    k0_pay4 (F := Ideal) x0 x1 (ix2 k c) = prod x0 x1 (ix2 k (pcol 0 c)) := by
  show extractStridedSlice S256x32 ![0, 0] (prod (F := Ideal) x0 x1) slices_S256x128_o0_0_S256x32 (ix2 k c) = _
  exact slice_cols _ 0 _ k c (pcol 0 c) (by show 32 * 0 + c.val = 0 + c.val; omega)
theorem panel1_apply (M : FVec Ideal S256x128 .f32) (k : Fin 256) (c : Fin 32) :
    k0_pay9 (F := Ideal) M (ix2 k c) = M (ix2 k (pcol 1 c)) := by
  show extractStridedSlice S256x32 ![0, 32] M slices_S256x128_o0_32_S256x32 (ix2 k c) = _
  exact slice_cols M 32 _ k c (pcol 1 c) (by show 32 * 1 + c.val = 32 + c.val; omega)
theorem panel2_apply (M : FVec Ideal S256x128 .f32) (k : Fin 256) (c : Fin 32) :
    k0_pay13 (F := Ideal) M (ix2 k c) = M (ix2 k (pcol 2 c)) := by
  show extractStridedSlice S256x32 ![0, 64] M slices_S256x128_o0_64_S256x32 (ix2 k c) = _
  exact slice_cols M 64 _ k c (pcol 2 c) (by show 32 * 2 + c.val = 64 + c.val; omega)
theorem panel3_apply (M : FVec Ideal S256x128 .f32) (k : Fin 256) (c : Fin 32) :
    k0_pay17 (F := Ideal) M (ix2 k c) = M (ix2 k (pcol 3 c)) := by
  show extractStridedSlice S256x32 ![0, 96] M slices_S256x128_o0_96_S256x32 (ix2 k c) = _
  exact slice_cols M 96 _ k c (pcol 3 c) (by show 32 * 3 + c.val = 96 + c.val; omega)

/-- The low (high) row tile of a panel at local row `r` is the panel's row `r` (row `128 + r`). -/
theorem rowsLo_apply (ms : FVec Ideal S256x32 .f32) (r : Fin 128) (c : Fin 32) (i : Fin 256) (hi : i.val = 0 + r.val) :
    rowsLo (F := Ideal) ms (ix3 r (0 : Fin 1) c) = ms (ix2 i c) := by
  unfold rowsLo
  refine (shapeCast_apply _ shapeCasts_S128x32_S128x1x32 (ix3 r (0 : Fin 1) c) (ix2 r c) ?_).trans ?_
  · rw [Shape.rowMajor_val_two, Shape.rowMajor_val_three]
    show r.val * 32 + c.val = (r.val * 1 + 0) * 32 + c.val
    omega
  exact extractStridedSlice_apply _ ms _ (ix2 r c) (ix2 i c) (fun a => by
    match a with
    | ⟨0, _⟩ => exact hi
    | ⟨1, _⟩ => show c.val = 0 + c.val; omega)
theorem rowsHi_apply (ms : FVec Ideal S256x32 .f32) (r : Fin 128) (c : Fin 32) (i : Fin 256) (hi : i.val = 128 + r.val) :
    rowsHi (F := Ideal) ms (ix3 r (0 : Fin 1) c) = ms (ix2 i c) := by
  unfold rowsHi
  refine (shapeCast_apply _ shapeCasts_S128x32_S128x1x32 (ix3 r (0 : Fin 1) c) (ix2 r c) ?_).trans ?_
  · rw [Shape.rowMajor_val_two, Shape.rowMajor_val_three]
    show r.val * 32 + c.val = (r.val * 1 + 0) * 32 + c.val
    omega
  exact extractStridedSlice_apply _ ms _ (ix2 r c) (ix2 i c) (fun a => by
    match a with
    | ⟨0, _⟩ => exact hi
    | ⟨1, _⟩ => show c.val = 0 + c.val; omega)

/-! ## The block as one function -/

/-- The block's entry at row `i`, lane `j`: the spec's row result for panel `j` of `M`. -/
def blockAt (M : FVec Ideal S256x128 .f32) (i : Fin 256) (j : Fin 4) : EReal := rowO (fun i' c => M (ix2 i' (pcol j c))) i
def blockG (M : FVec Ideal S256x128 .f32) : Vec Ideal S1x256x4 .f32 := fun y => blockAt M (y 1) (y 2)

theorem blockG_of (M : FVec Ideal S256x128 .f32) (y : S1x256x4.Idx) (i : Fin 256) (j : Fin 4)
    (h1 : (y 1).val = i.val) (h2 : (y 2).val = j.val) : blockG M y = blockAt M i j := by
  have e1 : (y 1 : Fin 256) = i := Fin.ext h1
  have e2 : (y 2 : Fin 4) = j := Fin.ext h2
  show blockAt M (y 1) (y 2) = _
  rw [e1, e2]

/-- A tile with base row `off1`, stored at rows `off1 …` of lane `off2`, is the block function under that rectangle. -/
theorem piece_apply (M : FVec Ideal S256x128 .f32) (off1 off2 : ℕ)
    (inb : ∀ a, (![0, off1, off2] : Fin 3 → ℕ) a + S1x128x1.size a ≤ S1x256x4.size a)
    (j : Fin 4) (hj : j.val = off2)
    (rows : FVec Ideal S128x1x32 .f32) (ms : FVec Ideal S256x32 .f32)
    (hms : ∀ (k : Fin 256) (c : Fin 32), ms (ix2 k c) = M (ix2 k (pcol j c)))
    (hrows : ∀ (r : Fin 128) (c : Fin 32) (i : Fin 256), i.val = off1 + r.val → rows (ix3 r (0 : Fin 1) c) = ms (ix2 i c))
    (x : S1x128x1.Idx) :
    tileOf (F := Ideal) rows ms (BitVec.ofNat 32 off1) x
      = blockG M ((Rect.unit (s := S1x256x4) ![0, off1, off2] S1x128x1.size inb).emb x) := by
  obtain ⟨u, r, v, rfl⟩ : ∃ (u : Fin 1) (r : Fin 128) (v : Fin 1), x = ix3 u r v := ⟨x 0, x 1, x 2, eq_ix3 x⟩
  obtain rfl : u = 0 := Subsingleton.elim _ _
  obtain rfl : v = 0 := Subsingleton.elim _ _
  have h1 : off1 + 128 ≤ 256 := inb 1
  have hlt : off1 + r.val < 256 := by have := r.isLt; omega
  rw [tileOf_apply rows ms off1 (fun i' c => M (ix2 i' (pcol j c))) r ⟨off1 + r.val, hlt⟩ rfl
    (fun c => (hrows r c ⟨off1 + r.val, hlt⟩ rfl).trans (hms _ c)) hms]
  refine (blockG_of M _ ⟨off1 + r.val, hlt⟩ j ?_ ?_).symm
  · show off1 + 1 * r.val = off1 + r.val
    omega
  · show off2 + 1 * 0 = j.val
    omega

theorem zeros2 : (![0, 0] : Fin 2 → Nat) = fun _ => 0 := funext fun a => by fin_cases a <;> rfl

/-- WHAT THE BODY LEAVES: the canon of its eight stores is the block function of the point's product. -/
theorem out_eq (x0 : Vec Ideal S256x1024 .f32) (x1 : Vec Ideal S1024x128 .f32) :
    out0_2 (F := Ideal) x0 x1 = blockG (prod x0 x1) := by
  funext y
  unfold out0_2
  simp only [View.ld_unit_zero (S := S256x1024) zeros2, View.ld_unit_zero (S := S1024x128) zeros2]
  refine View.canon_apply_of_pieces (Val := Elt Ideal) (blockG (prod x0 x1)) _ ?_ y (cover0_2 _ _ _ _ _ _ _ _ y)
  intro p hp
  simp only [List.mem_cons, List.mem_nil_iff, or_false] at hp
  rcases hp with rfl | rfl | rfl | rfl | rfl | rfl | rfl | rfl
  · intro x
    exact (congrFun (store_g3_hi _) x).trans
      (piece_apply (prod x0 x1) 128 3 inb_S1x256x4_S1x128x1_0_128_3 3 rfl _ _ (panel3_apply _) (fun r c i hi => rowsHi_apply _ r c i hi) x)
  · intro x
    exact (congrFun (store_g3_lo _) x).trans
      (piece_apply (prod x0 x1) 0 3 inb_S1x256x4_S1x128x1_0_0_3 3 rfl _ _ (panel3_apply _) (fun r c i hi => rowsLo_apply _ r c i hi) x)
  · intro x
    exact (congrFun (store_g2_hi _) x).trans
      (piece_apply (prod x0 x1) 128 2 inb_S1x256x4_S1x128x1_0_128_2 2 rfl _ _ (panel2_apply _) (fun r c i hi => rowsHi_apply _ r c i hi) x)
  · intro x
    exact (congrFun (store_g2_lo _) x).trans
      (piece_apply (prod x0 x1) 0 2 inb_S1x256x4_S1x128x1_0_0_2 2 rfl _ _ (panel2_apply _) (fun r c i hi => rowsLo_apply _ r c i hi) x)
  · intro x
    exact (congrFun (store_g1_hi _) x).trans
      (piece_apply (prod x0 x1) 128 1 inb_S1x256x4_S1x128x1_0_128_1 1 rfl _ _ (panel1_apply _) (fun r c i hi => rowsHi_apply _ r c i hi) x)
  · intro x
    exact (congrFun (store_g1_lo _) x).trans
      (piece_apply (prod x0 x1) 0 1 inb_S1x256x4_S1x128x1_0_0_1 1 rfl _ _ (panel1_apply _) (fun r c i hi => rowsLo_apply _ r c i hi) x)
  · intro x
    exact (congrFun (store_g0_hi x0 x1) x).trans
      (piece_apply (prod x0 x1) 128 0 inb_S1x256x4_S1x128x1_0_128_0 0 rfl _ _ (panel0_apply x0 x1) (fun r c i hi => rowsHi_apply _ r c i hi) x)
  · intro x
    exact (congrFun (store_g0_lo x0 x1) x).trans
      (piece_apply (prod x0 x1) 0 0 inb_S1x256x4_S1x128x1_0_0_0 0 rfl _ _ (panel0_apply x0 x1) (fun r c i hi => rowsLo_apply _ r c i hi) x)

end Cert.KernelIdeal.Block

end
-- ==== Proof.Arr.lean ====
/-
  From blocks to the array, and the array re-laid as the `[256, 64]` result.

  Grid point `g` reads all of `x` and columns `128 g … 128 g + 127` of `T`, so its product is columns
  `128 g …` of `x · T`: panel `j` of the point is group `4 g + j`. Its `1 × 256 × 4` block is block `g` of the
  `16 × 256 × 4` output, and the sixteen blocks tile it; hence the array ends holding, at `(g, i, j)`, the spec at row `i`
  and group `4 g + j`. The transpose to `256 × 16 × 4` and the reshape to `256 × 64` put that entry at `(i, 4 g + j)`.
-/
import proofs.«134315_j62869731279616_1_alg».proof.Proof.Block

set_option maxRecDepth 16384

noncomputable section

namespace Cert.KernelIdeal.Arr

open Cert.KernelIdeal Cert.KernelIdeal.Gen Cert.KernelIdeal.Tile Cert.KernelIdeal.Block
open Idealize.ShloMosaic Idealize.ShloMosaic.TcCoe Idealize.ShloMosaic.ValueIdx Idealize.SL.Sem Cert.PairSpec

/-- Group `4 g + j`. -/
def grp (g : Fin 16) (j : Fin 4) : Fin 64 := ⟨4 * g.val + j.val, by omega⟩

/-- What the output array ends holding. -/
def outG (x : Vec Ideal S256x1024 .f32) (T : Vec Ideal S1024x2048 .f32) : Vec Ideal S16x256x4 .f32 :=
  fun I => O x T (I 1) (grp (I 0) (I 2))

theorem outG_of (x : Vec Ideal S256x1024 .f32) (T : Vec Ideal S1024x2048 .f32) (I : S16x256x4.Idx) (g : Fin 16) (i : Fin 256) (j : Fin 4)
    (h0 : (I 0).val = g.val) (h1 : (I 1).val = i.val) (h2 : (I 2).val = j.val) : outG x T I = O x T i (grp g j) := by
  have e0 : (I 0 : Fin 16) = g := Fin.ext h0
  have e1 : (I 1 : Fin 256) = i := Fin.ext h1
  have e2 : (I 2 : Fin 4) = j := Fin.ext h2
  show O x T (I 1) (grp (I 0) (I 2)) = _
  rw [e0, e1, e2]

/-- A point's block entry is the array's: the point's loaded blocks are `x` and columns `128 g …` of `T`. -/
theorem block_is_outG (x : Vec Ideal S256x1024 .f32) (T : Vec Ideal S1024x2048 .f32)
    (X0 : Vec Ideal S256x1024 .f32) (X1 : Vec Ideal S1024x128 .f32) (g : Fin 16)
    (h0 : ∀ (i : Fin 256) (a : Fin 1024), X0 (ix2 i a) = x (ix2 i a))
    (h1 : ∀ (a : Fin 1024) (n : Fin 128) (n' : Fin 2048), n'.val = 128 * g.val + n.val → X1 (ix2 a n) = T (ix2 a n'))
    (i : Fin 256) (j : Fin 4) : blockAt (prod X0 X1) i j = O x T i (grp g j) := by
  unfold blockAt O
  refine congrArg (fun P => rowO P i) (funext fun i' => funext fun c => ?_)
  rw [prod_apply]
  unfold mm
  refine Finset.sum_congr rfl fun a _ => ?_
  rw [h0, h1 a (pcol j c) (col (grp g j) c) (by
    show 32 * (4 * g.val + j.val) + c.val = 128 * g.val + (32 * j.val + c.val)
    omega)]

/-! ## The windows' index maps, decided once over the grid -/

theorem idx_facts : ∀ t : Fin cfg0.N, win0_0.index t (0 : Fin 2) = 0 ∧ win0_0.index t (1 : Fin 2) = 0
    ∧ win0_1.index t (0 : Fin 2) = 0 ∧ win0_1.index t (1 : Fin 2) = win0_2.index t (0 : Fin 3)
    ∧ win0_2.index t (0 : Fin 3) ≤ 15 ∧ win0_2.index t (1 : Fin 3) = 0 ∧ win0_2.index t (2 : Fin 3) = 0 :=
  (by decide +kernel : ∀ t : Fin grid0.N, _)

theorem idx_onto : ∀ q : Fin 16, ∃ t : Fin cfg0.N, win0_2.index t = ![q.val, 0, 0] :=
  (by decide +kernel : ∀ q : Fin 16, ∃ t : Fin grid0.N, win0_2.index t = ![q.val, 0, 0])

variable (m : (ℓ : Loc nD τ sig) → Buf (Elt Ideal) ℓ) (ρ : Dev nD → PrngReg)

/-- WHAT POINT `t` WRITES BACK is block `t` of `outG` of the argument arrays as the region finds them. -/
theorem flushed_eq (c : Dev nD) (t : Fin cfg0.N) :
    (dats m 0 c).flushed 2 t = ((cfg0.win 2).blk t).view.read (Elt Ideal) (outG (V m c main_arg0) (V m c main_arg1)) := by
  show (cfg0.win 2).cut (grid0.coords t) ((dats m 0 c).after 2 t) = _
  rw [after0_2, out_eq]
  obtain ⟨f00, f01, f10, f11, f20, f21, f22⟩ := idx_facts t
  funext y
  show blockG (prod (iblk m c 0 t) (iblk m c 1 t)) y
    = outG (V m c main_arg0) (V m c main_arg1) (((cfg0.win 2).blk t).view.emb y)
  have hy0 : (y 0).val < 1 := (y 0).isLt
  have hy1 : (y 1).val < 256 := (y 1).isLt
  have hy2 : (y 2).val < 4 := (y 2).isLt
  rw [blockG_of _ y ⟨(y 1).val, hy1⟩ ⟨(y 2).val, hy2⟩ rfl rfl,
    outG_of _ _ _ ⟨win0_2.index t (0 : Fin 3), by omega⟩ ⟨(y 1).val, hy1⟩ ⟨(y 2).val, hy2⟩
      (by show win0_2.index t (0 : Fin 3) * 1 + 1 * (y 0).val = win0_2.index t (0 : Fin 3); omega)
      (by show win0_2.index t (1 : Fin 3) * 256 + 1 * (y 1).val = (y 1).val; omega)
      (by show win0_2.index t (2 : Fin 3) * 4 + 1 * (y 2).val = (y 2).val; omega)]
  refine block_is_outG _ _ _ _ ⟨win0_2.index t (0 : Fin 3), by omega⟩ ?_ ?_ _ _
  · intro i a
    show V m c main_arg0 (((cfg0.win 0).blk t).view.emb (ix2 i a)) = V m c main_arg0 (ix2 i a)
    refine congrArg _ (funext fun d => Fin.ext ?_)
    match d with
    | ⟨0, _⟩ => show win0_0.index t (0 : Fin 2) * 256 + 1 * i.val = i.val; omega
    | ⟨1, _⟩ => show win0_0.index t (1 : Fin 2) * 1024 + 1 * a.val = a.val; omega
  · intro a n n' hn
    have hn' : n'.val = 128 * win0_2.index t (0 : Fin 3) + n.val := hn
    show V m c main_arg1 (((cfg0.win 1).blk t).view.emb (ix2 a n)) = V m c main_arg1 (ix2 a n')
    refine congrArg _ (funext fun d => Fin.ext ?_)
    match d with
    | ⟨0, _⟩ => show win0_1.index t (0 : Fin 2) * 1024 + 1 * a.val = a.val; omega
    | ⟨1, _⟩ => show win0_1.index t (1 : Fin 2) * 128 + 1 * n.val = n'.val; omega

/-- An index of the array is in point `t`'s block iff each coordinate is in the block's range on its axis. -/
theorem mem_blk (t : Fin cfg0.N) (i : S16x256x4.Idx) :
    i ∈ ((cfg0.win 2).blk t).view.set ↔ ∀ a : Fin 3, win0_2.index t a * S1x256x4.size a ≤ (i a).val
      ∧ (i a).val < win0_2.index t a * S1x256x4.size a + S1x256x4.size a := by
  show i ∈ ((View.whole main_v0).slice (win0_2.rect t)).set ↔ _
  rw [View.set_slice_whole, Rect.mem_set_unit]
  exact Iff.rfl

/-- The sixteen blocks cover the array: index `(g, i, j)` is in point `g`'s block. -/
theorem cover (i : S16x256x4.Idx) : ∃ t : Fin cfg0.N, (cfg0.win 2).flush t = true ∧ i ∈ ((cfg0.win 2).blk t).view.set := by
  have hi0 : (i 0).val < 16 := (i 0).isLt
  have hi1 : (i 1).val < 256 := (i 1).isLt
  have hi2 : (i 2).val < 4 := (i 2).isLt
  obtain ⟨t, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 4 ≤ (i 2).val ∧ (i 2).val < win0_2.index t (2 : Fin 3) * 4 + 4; omega

/-- THE ARRAY after the run. -/
theorem final (c : Dev nD) :
    (dats m 0 c).arrAt 2 cfg0.N = outG (m ((c : Thread nD τ).loc main_arg0)) (m ((c : Thread nD τ).loc main_arg1)) :=
  (dats m 0 c).arrAt_eq_of_cover 2 _ (fun t _ => flushed_eq m c t) cover

/-! ## The array re-laid -/

/-- The transpose to `256 × 16 × 4` and the reshape to `256 × 64` of the array is the spec's array. -/
theorem relaid_eq (x : Vec Ideal S256x1024 .f32) (T : Vec Ideal S1024x2048 .f32) :
    shapeCast S256x64 (transpose S256x16x4 [1, 0, 2] (outG x T) transposes_S16x256x4_S256x16x4_1_0_2) shapeCasts_S256x16x4_S256x64
      = Oarr x T := by
  funext I
  obtain ⟨i, b, rfl⟩ : ∃ (i : Fin 256) (b : Fin 64), I = ix2 i b := ⟨I 0, I 1, eq_ix2 I⟩
  have hb := b.isLt
  have hg : b.val / 4 < 16 := by omega
  have hj : b.val % 4 < 4 := by omega
  refine (shapeCast_apply _ shapeCasts_S256x16x4_S256x64 (ix2 i b) (ix3 i (⟨b.val / 4, hg⟩ : Fin 16) (⟨b.val % 4, hj⟩ : Fin 4)) ?_).trans ?_
  · rw [Shape.rowMajor_val_two, Shape.rowMajor_val_three]
    show (i.val * 16 + b.val / 4) * 4 + b.val % 4 = i.val * 64 + b.val
    omega
  refine (transpose_apply [1, 0, 2] (outG x T) transposes_S16x256x4_S256x16x4_1_0_2 _
    (ix3 (⟨b.val / 4, hg⟩ : Fin 16) i (⟨b.val % 4, hj⟩ : Fin 4))
    (fun d => by match d with | ⟨0, _⟩ => rfl | ⟨1, _⟩ => rfl | ⟨2, _⟩ => rfl)).trans ?_
  rw [outG_of x T _ ⟨b.val / 4, hg⟩ i ⟨b.val % 4, hj⟩ rfl rfl rfl, Oarr_ix2]
  exact congrArg (O x T i) (Fin.ext (by show 4 * (b.val / 4) + b.val % 4 = b.val; omega))

end Cert.KernelIdeal.Arr

end
-- ==== Proof.Tail.lean ====
/-
  The kernel's run, read: the result buffer after the host lines that follow the region.

  After the region the three host lines transpose the `16 × 256 × 4` output to `256 × 16 × 4`, reshape it to
  `256 × 64` and join it to `x` along the columns. The region leaves the output array at `outG` of the arguments and
  the arguments unchanged, so the result is `x` joined with the spec's array.
-/
import proofs.«134315_j62869731279616_1_alg».proof.Proof.Arr
import Idealize.ShloMosaic.Lib.StableHlo.Run

set_option maxRecDepth 16384

noncomputable section

namespace Cert.KernelIdeal.Tail

open Cert.KernelIdeal Cert.KernelIdeal.Gen Cert.KernelIdeal.Arr
open Idealize.ShloMosaic Idealize.ShloMosaic.TcCoe Idealize.ShloMosaic.ValueIdx Idealize.SL.Sem Cert.PairSpec
open Idealize.ShloMosaic.StableHlo

variable (m : (ℓ : Loc nD τ sig) → Buf (Elt Ideal) ℓ) (ρ : Dev nD → PrngReg)

/-- The result as one term of the argument arrays. -/
def result (x : Vec Ideal S256x1024 .f32) (T : Vec Ideal S1024x2048 .f32) : Vec Ideal S256x1088 .f32 :=
  concatenate S256x1088 1 [⟨S256x1024, x⟩, ⟨S256x64, Oarr x T⟩] concatenates_S256x1024_S256x64_S256x1088_d1

/-- The input array `x` is as launched when the host lines read it. -/
theorem arg0_kept (c : Dev nD) : (dats m 0 c).arrAt 0 cfg0.N = m ((c : Thread nD τ).loc main_arg0) :=
  ((dats m 0 c).arrAt_in 0 rfl _).trans ((A_eq m c 0).trans (V_main_arg0 m c))

/-- THE RESULT BUFFER after the three host lines. -/
theorem tail_value (c : Dev nD) :
    Pipeline.afterTail₀ cfgs (dats m) 0 (V0 m) [hostOps1] c main_v3
      = result (m ((c : Thread nD τ).loc main_arg0)) (m ((c : Thread nD τ).loc main_arg1)) := by
  unfold Pipeline.afterTail₀
  show StableHlo.after hostOps1 _ (Proc.devRef .tc main_v3) = _
  after_results
  have e0 : Pipeline.withArrays (cfgs 0).spec c (V0 m c) (fun w => (dats m 0 c).arrAt w (cfgs 0).N) (Proc.tc.devRef main_arg0)
      = m ((c : Thread nD τ).loc main_arg0) :=
    (Pipeline.withArrays_arr spec0 launch0.win.arr_inj c _ _ 0).trans (arg0_kept m c)
  have e2 : Pipeline.withArrays (cfgs 0).spec c (V0 m c) (fun w => (dats m 0 c).arrAt w (cfgs 0).N) (Proc.tc.devRef main_v0)
      = outG (m ((c : Thread nD τ).loc main_arg0)) (m ((c : Thread nD τ).loc main_arg1)) :=
    (Pipeline.withArrays_arr spec0 launch0.win.arr_inj c _ _ 2).trans (final m c)
  rw [e0, e2]
  exact congrArg (fun z => concatenate S256x1088 1 [⟨S256x1024, m ((c : Thread nD τ).loc main_arg0)⟩, ⟨S256x64, z⟩]
      concatenates_S256x1024_S256x64_S256x1088_d1)
    (relaid_eq (m ((c : Thread nD τ).loc main_arg0)) (m ((c : Thread nD τ).loc main_arg1)))

/-- THE RUN, READ: every weakly fair execution ends with the result buffer at `result` of the arguments and the
    arguments unchanged. -/
theorem run : θ_run defs (onTc (τ := τ) (main (F := Ideal))) ⟨m, fun _ => 0, ρ⟩ fun r => ∀ c : Dev nD,
      r.2.mem ((c.tc : Thread nD τ).loc main_v3) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (tail_value m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Tail

end
-- ==== Proof.RefO.lean ====
/-
  The reference's `[256, 64]` result is the spec.

  The reference forms the product once, views it as 256 × 64 × 32, subtracts every pair of rows inside a group along a
  fourth axis, sums the absolute differences over the 32 columns, adds the diagonal mask, negates, exponentiates and sums
  over the keys. Read stage by stage at an index, each stage's index map is a choice of coordinates, and the result at
  `(i, b)` is the spec's row result of group `b`'s panel at row `i`.
-/
import proofs.«134315_j62869731279616_1_alg».proof.Proof.Gen.ReferenceIdeal.Read
import proofs.«134315_j62869731279616_1_alg».proof.Proof.Spec

noncomputable section

namespace Cert.ReferenceIdeal.RefValue

open Cert.ReferenceIdeal Cert.ReferenceIdeal.Read Idealize.ShloMosaic Idealize.ShloMosaic.ValueIdx Cert.PairSpec

variable (x : (⟨S256x1024, .f32⟩ : BufTy).Contents (Elt Ideal)) (T : (⟨S1024x2048, .f32⟩ : BufTy).Contents (Elt Ideal))

/-- The product viewed as 256 × 64 × 32, at `(i, b, c)`: entry `(i, 32 b + c)` of `x · T`. -/
theorem grouped_apply (i : Fin 256) (b : Fin 64) (c : Fin 32) :
    val_main_v1 (F := Ideal) x T (ix3 i b c) = mm x T i (col b c) := by
  rw [val_main_v1_apply, val_main_v0_apply]
  unfold mm
  refine Finset.sum_congr rfl fun a _ => ?_
  have hi := i.isLt; have hb := b.isLt; have hc := c.isLt
  have el : lidx_main_v0 (idx_main_v1 (ix3 i b c)) a = ix2 i a := funext fun d => Fin.ext (by
    match d with
    | ⟨0, _⟩ => show ((i.val * 64 + b.val) * 32 + c.val) / 2048 = i.val; omega
    | ⟨1, _⟩ => rfl)
  have er : ridx_main_v0 (idx_main_v1 (ix3 i b c)) a = ix2 a (col b c) := funext fun d => Fin.ext (by
    match d with
    | ⟨0, _⟩ => rfl
    | ⟨1, _⟩ => show ((i.val * 64 + b.val) * 32 + c.val) % 2048 = 32 * b.val + c.val; omega)
  rw [el, er]

/-- The L1 distance stage at `(i, b, k)`. -/
theorem dist_apply (i k : Fin 256) (b : Fin 64) :
    val_main_v9 (F := Ideal) x T (ix3 i b k)
      = ∑ c : Fin 32, max (mm x T i (col b c) - mm x T k (col b c)) (-(mm x T i (col b c) - mm x T k (col b c))) := by
  rw [val_main_v9_apply, val_main_cst_apply]
  show Ideal.ofBits .f32 0x00000000#32 + _ = _
  rw [Ideal.ofBits_zero_f32, zero_add]
  refine Finset.sum_congr rfl fun c _ => ?_
  rw [val_main_v8_apply, val_main_v7_apply, val_main_v5_apply, val_main_v2_apply, val_main_v6_apply, val_main_v4_apply,
    val_main_v3_apply]
  have e5 : idx_main_v2 (idx_main_v5 (idx_main_v9 (ix3 i b k) c)) = ix3 i b c := funext fun d => Fin.ext (by
    match d with | ⟨0, _⟩ => rfl | ⟨1, _⟩ => rfl | ⟨2, _⟩ => rfl)
  have e6 : idx_main_v3 (idx_main_v4 (idx_main_v6 (idx_main_v9 (ix3 i b k) c))) = ix3 k b c := funext fun d => Fin.ext (by
    match d with | ⟨0, _⟩ => rfl | ⟨1, _⟩ => rfl | ⟨2, _⟩ => rfl)
  rw [e5, e6, grouped_apply, grouped_apply]
  rfl

/-- The mask stage at `(i, b, k)`: the weight times the diagonal indicator of `(i, k)`. -/
theorem mask_apply (i k : Fin 256) (b : Fin 64) :
    val_main_v19 (F := Ideal) (ix3 i b k) = erase * diag i.val k.val := by
  rw [val_main_v19_apply, val_main_v18_apply, val_main_v17_apply, val_main_cst_0_apply, val_main_v16_apply, val_main_v15_apply,
    val_main_v14_apply, val_main_v13_apply, val_main_v10_apply, val_main_v12_apply, val_main_c_apply, val_main_v11_apply]
  show erase * (((IntOp.cmpi .eq (IntOp.addi (BitVec.ofNat 32 i.val) 0#32) (BitVec.ofNat 32 k.val)).toNat : ℝ) : EReal) = _
  rw [word_add_zero]
  rfl

/-- THE REFERENCE'S RESULT at `(i, b)` is the spec's. -/
theorem result_apply (i : Fin 256) (b : Fin 64) : val_main_v23 (F := Ideal) x T (ix2 i b) = O x T i b := by
  rw [val_main_v23_apply, val_main_cst_1_apply]
  show Ideal.ofBits .f32 0x00000000#32 + _ = _
  rw [Ideal.ofBits_zero_f32, zero_add]
  unfold O rowO
  refine Finset.sum_congr rfl fun k _ => ?_
  have e : idx_main_v23 (ix2 i b) k = ix3 i b k := funext fun d => Fin.ext (by
    match d with | ⟨0, _⟩ => rfl | ⟨1, _⟩ => rfl | ⟨2, _⟩ => rfl)
  rw [e, val_main_v22_apply, val_main_v21_apply, val_main_v20_apply, dist_apply, mask_apply]
  rfl

theorem result_eq : val_main_v23 (F := Ideal) x T = Oarr x T := by
  funext I
  obtain ⟨i, b, rfl⟩ : ∃ (i : Fin 256) (b : Fin 64), I = ix2 i b := ⟨I 0, I 1, eq_ix2 I⟩
  exact result_apply x T i b

end Cert.ReferenceIdeal.RefValue

end
-- ==== Proof.lean ====
/-
  The certificate: a minibatch-discrimination kernel against its jnp reference, over the extended reals.

  Both programs form `m = x · T` (`256 × 2048`, read as 64 groups of 32 columns) and return `x` joined along the columns
  with the `256 × 64` array `o`, where `o[i, b] = Σ_k exp (-(Σ_c |m[i, 32 b + c] − m[k, 32 b + c]| + E · [i = k]))`:
  the L1 distance between rows `i` and `k` inside group `b`, the diagonal erased by the weight `E`, summed over all rows.

  The kernel walks 16 grid points; point `g` multiplies all of `x` by columns `128 g … 128 g + 127` of `T` (the narrowing
  of the operands to 16 bits is the identity on the extended reals), and for each of its four groups and each of two
  tiles of 128 rows stores one column of sums: eight stores that tile its `1 × 256 × 4` block. The blocks tile the
  `16 × 256 × 4` output, which the host then transposes and reshapes to `256 × 64`. The reference forms the whole
  product once and broadcasts every pair of rows along a fourth axis. The two differ only in layout and in spelling:
  `0 − y` for `−y`, a widened one-bit comparison read signed for the same bit read unsigned, the same sums in another
  order of the same index sets. No step moves a factor across a sum, so no finiteness is used.

  Modules: Spec (the function `o`, over plain index types), Tile (one stored column as a function of its group's
  panel), Block (the eight stores are one function of the point's product), Arr (the blocks are the array; the array
  re-laid), Tail (the kernel's run with the host lines after the region), RefO (the reference's stages are the spec).
-/
import proofs.«134315_j62869731279616_1_alg».proof.Defs
import proofs.«134315_j62869731279616_1_alg».proof.Proof.Gen.Kernel
import proofs.«134315_j62869731279616_1_alg».proof.Proof.Gen.Kernel.Skeleton
import proofs.«134315_j62869731279616_1_alg».proof.Proof.Gen.Kernel.Launch
import proofs.«134315_j62869731279616_1_alg».proof.Proof.Gen.Kernel.Points
import proofs.«134315_j62869731279616_1_alg».proof.Proof.Gen.Kernel.Frame
import proofs.«134315_j62869731279616_1_alg».proof.Proof.Gen.KernelIdeal
import proofs.«134315_j62869731279616_1_alg».proof.Proof.Gen.KernelIdeal.Skeleton
import proofs.«134315_j62869731279616_1_alg».proof.Proof.Gen.KernelIdeal.Launch
import proofs.«134315_j62869731279616_1_alg».proof.Proof.Gen.KernelIdeal.Points
import proofs.«134315_j62869731279616_1_alg».proof.Proof.Gen.KernelIdeal.Frame
import proofs.«134315_j62869731279616_1_alg».proof.Proof.Gen.ReferenceIdeal
import proofs.«134315_j62869731279616_1_alg».proof.Proof.Gen.Pre_finite_inputs
import proofs.«134315_j62869731279616_1_alg».proof.Proof.Gen.ReferenceIdeal.Run
import proofs.«134315_j62869731279616_1_alg».proof.Proof.Gen.ReferenceIdeal.Read
import proofs.«134315_j62869731279616_1_alg».proof.Proof.Tail
import proofs.«134315_j62869731279616_1_alg».proof.Proof.RefO
import Idealize.ShloMosaic.Adequacy
import Idealize.ShloMosaic.Init

noncomputable section

namespace Cert.Proof

open Idealize.ShloMosaic Idealize.SL.Sem

/-- The three programs run, and leave their arguments as they found them. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with `x` joined to the spec's array of the arguments they agree on. -/
theorem algebraic : Cert.algebraic_KernelIdeal_ReferenceIdeal := by
  intro m ρ m' ρ' _ hagree
  refine ⟨fun c => Cert.KernelIdeal.Tail.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2]
  unfold Cert.ReferenceIdeal.Read.val_main_v24
  rw [Cert.ReferenceIdeal.RefValue.result_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
